-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : FVec F S200000x2 .f32) (main_arg1 : FVec F S200000x3 .f32) (main_arg2 : FVec F S100 .f32) (main_arg3 : IVec S200000 32) (main_arg4 : IVec S200000x64 32) (main_arg5 : IVec S200000x64 1) (main_arg6 : IVec S200000 32) : IVec S_ 1 :=
  let main_v0 : FVec F S200000x2 .f32 := Host.absf main_arg0
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S200000x3 .f32 := Host.absf main_arg1
  let main_cst_0 : FVec F S_ .f32 := constant S_ .f32 0x7F800000#32
  let main_v5 : FVec F S200000x3 .f32 := broadcastInDim S200000x3 ![] bcast_S_S200000x3 main_cst_0
  let main_v6 : IVec S200000x3 1 := cmpf .olt main_v4 main_v5
  let main_c_1 : IVec S_ 1 := constantI S_ 1 1#1
  let main_v7 : IVec S_ 1 := (fun x v => Host.reduce IntOp.andi x v reducesTo_S200000x3_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  main_v13
-- ==== Kernel.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S200000x1 : Shape := ⟨2, ![200000, 1]⟩
abbrev S_ : Shape := ⟨0, ![]⟩
abbrev S200000x64x1 : Shape := ⟨3, ![200000, 64, 1]⟩
abbrev S200000x64x3 : Shape := ⟨3, ![200000, 64, 3]⟩
abbrev S200000x3x64 : Shape := ⟨3, ![200000, 3, 64]⟩
abbrev S1000x1 : Shape := ⟨2, ![1000, 1]⟩
abbrev S1000x3 : Shape := ⟨2, ![1000, 3]⟩
abbrev S1000x64 : Shape := ⟨2, ![1000, 64]⟩
abbrev S1000x3x64 : Shape := ⟨3, ![1000, 3, 64]⟩
abbrev S1000x3x1 : Shape := ⟨3, ![1000, 3, 1]⟩
abbrev S1000 : Shape := ⟨1, ![1000]⟩
abbrev S2000 : Shape := ⟨1, ![2000]⟩

abbrev nBuf : Space → Nat
  | .hbm => 70
  | .vmem => 20
  | .smem => 0
  | _ => 0

abbrev bufTy : (tb : Table) → Fin (tcTables nBuf tb) → BufTy
  | .hbm, ⟨0, _⟩ => ⟨S200000x2, .f32⟩
  | .hbm, ⟨1, _⟩ => ⟨S200000x3, .f32⟩
  | .hbm, ⟨2, _⟩ => ⟨S100, .f32⟩
  | .hbm, ⟨3, _⟩ => ⟨S200000, .i32⟩
  | .hbm, ⟨4, _⟩ => ⟨S200000x64, .i32⟩
  | .hbm, ⟨5, _⟩ => ⟨S200000x64, .i1⟩
  | .hbm, ⟨6, _⟩ => ⟨S200000, .i32⟩
  | .hbm, ⟨7, _⟩ => ⟨S200000x1, .f32⟩
  | .hbm, ⟨8, _⟩ => ⟨S200000, .f32⟩
  | .hbm, ⟨9, _⟩ => ⟨S200000x1, .f32⟩
  | .hbm, ⟨10, _⟩ => ⟨S200000, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000, .f32⟩
  | .hbm, ⟨20, _⟩ => ⟨S_, .i32⟩
  | .hbm, ⟨21, _⟩ => ⟨S200000x64, .i32⟩
  | .hbm, ⟨22, _⟩ => ⟨S200000x64, .i1⟩
  | .hbm, ⟨23, _⟩ => ⟨S_, .i32⟩
  | .hbm, ⟨24, _⟩ => ⟨S200000x64, .i32⟩
  | .hbm, ⟨25, _⟩ => ⟨S200000x64, .i32⟩
  | .hbm, ⟨26, _⟩ => ⟨S200000x64, .i32⟩
  | .hbm, ⟨27, _⟩ => ⟨S200000x64x1, .i32⟩
  | .hbm, ⟨28, _⟩ => ⟨S200000x64, .f32⟩
  | .hbm, ⟨29, _⟩ => ⟨S_, .i32⟩
  | .hbm, ⟨30, _⟩ => ⟨S200000x64, .i32⟩
  | .hbm, ⟨31, _⟩ => ⟨S200000x64, .i1⟩
  | .hbm, ⟨32, _⟩ => ⟨S_, .i32⟩
  | .hbm, ⟨33, _⟩ => ⟨S200000x64, .i32⟩
  | .hbm, ⟨34, _⟩ => ⟨S200000x64, .i32⟩
  | .hbm, ⟨35, _⟩ => ⟨S200000x64, .i32⟩
  | .hbm, ⟨36, _⟩ => ⟨S200000x64x1, .i32⟩
  | .hbm, ⟨37, _⟩ => ⟨S200000x64, .f32⟩
  | .hbm, ⟨38, _⟩ => ⟨S_, .i32⟩
  | .hbm, ⟨39, _⟩ => ⟨S200000x64, .i32⟩
  | .hbm, ⟨40, _⟩ => ⟨S200000x64, .i1⟩
  | .hbm, ⟨41, _⟩ => ⟨S_, .i32⟩
  | .hbm, ⟨42, _⟩ => ⟨S200000x64, .i32⟩
  | .hbm, ⟨43, _⟩ => ⟨S200000x64, .i32⟩
  | .hbm, ⟨44, _⟩ => ⟨S200000x64, .i32⟩
  | .hbm, ⟨45, _⟩ => ⟨S200000x64x1, .i32⟩
  | .hbm, ⟨46, _⟩ => ⟨S200000x64, .f32⟩
  | .hbm, ⟨47, _⟩ => ⟨S_, .i32⟩
  | .hbm, ⟨48, _⟩ => ⟨S200000x64, .i32⟩
  | .hbm, ⟨49, _⟩ => ⟨S200000x64, .i1⟩
  | .hbm, ⟨50, _⟩ => ⟨S_, .i32⟩
  | .hbm, ⟨51, _⟩ => ⟨S200000x64, .i32⟩
  | .hbm, ⟨52, _⟩ => ⟨S200000x64, .i32⟩
  | .hbm, ⟨53, _⟩ => ⟨S200000x64, .i32⟩
  | .hbm, ⟨54, _⟩ => ⟨S200000x64x1, .i32⟩
  | .hbm, ⟨55, _⟩ => ⟨S200000x64x3, .f32⟩
  | .hbm, ⟨56, _⟩ => ⟨S200000x3x64, .f32⟩
  | .hbm, ⟨57, _⟩ => ⟨S200000x64, .f32⟩
  | .hbm, ⟨58, _⟩ => ⟨S200000x1, .f32⟩
  | .hbm, ⟨59, _⟩ => ⟨S200000x1, .f32⟩
  | .hbm, ⟨60, _⟩ => ⟨S200000x1, .f32⟩
  | .hbm, ⟨61, _⟩ => ⟨S200000x1, .f32⟩
  | .hbm, ⟨62, _⟩ => ⟨S200000, .f32⟩
  | .hbm, ⟨63, _⟩ => ⟨S_, .f32⟩
  | .hbm, ⟨64, _⟩ => ⟨S2000, .f32⟩
  | .hbm, ⟨65, _⟩ => ⟨S200000x1, .i32⟩
  | .hbm, ⟨66, _⟩ => ⟨S2000, .f32⟩
  | .hbm, ⟨67, _⟩ => ⟨S_, .f32⟩
  | .hbm, ⟨68, _⟩ => ⟨S2000, .f32⟩
  | .hbm, ⟨69, _⟩ => ⟨S2000, .f32⟩
  | .local _ .vmem, ⟨0, _⟩ => ⟨S1000x1, .f32⟩
  | .local _ .vmem, ⟨1, _⟩ => ⟨S1000x1, .f32⟩
  | .local _ .vmem, ⟨2, _⟩ => ⟨S1000x1, .f32⟩
  | .local _ .vmem, ⟨3, _⟩ => ⟨S1000x1, .f32⟩
  | .local _ .vmem, ⟨4, _⟩ => ⟨S1000x1, .f32⟩
  | .local _ .vmem, ⟨5, _⟩ => ⟨S1000x1, .f32⟩
  | .local _ .vmem, ⟨6, _⟩ => ⟨S1000x3, .f32⟩
  | .local _ .vmem, ⟨7, _⟩ => ⟨S1000x3, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S1000x64, .f32⟩
  | .local _ .vmem, ⟨14, _⟩ => ⟨S1000x64, .f32⟩
  | .local _ .vmem, ⟨15, _⟩ => ⟨S1000x64, .f32⟩
  | .local _ .vmem, ⟨16, _⟩ => ⟨S1000x3x64, .f32⟩
  | .local _ .vmem, ⟨17, _⟩ => ⟨S1000x3x64, .f32⟩
  | .local _ .vmem, ⟨18, _⟩ => ⟨S1000x1, .f32⟩
  | .local _ .vmem, ⟨19, _⟩ => ⟨S1000x1, .f32⟩
  | _, _ => ⟨S200000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x3x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S200000x64_S200000x64x1_0_1 : S200000x64.BroadcastsInDim S200000x64x1 (![0, 1] : Fin 2 → Fin S200000x64x1.rank)
  transposes_S200000x64x3_S200000x3x64_0_2_1 : S200000x64x3.Transposes [0, 2, 1] S200000x3x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x3_S1000x3_0_0 : ∀ a, (![0, 0] : Fin 2 → Nat) a + S1000x3.size a ≤ S1000x3.size a
  h_S1000x3 : 0 < S1000x3.numel
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x3x64_S1000x3x64_0_0_0 : ∀ a, (![0, 0, 0] : Fin 3 → Nat) a + S1000x3x64.size a ≤ S1000x3x64.size a
  h_S1000x3x64 : 0 < S1000x3x64.numel
  shapeCasts_S1000x3x64_S1000x3x64 : S1000x3x64.ShapeCasts S1000x3x64
  broadcasts_S1000x1_S1000x64 : S1000x1.Broadcasts S1000x64
  shapeCasts_S1000x3_S1000x3x1 : S1000x3.ShapeCasts S1000x3x1
  broadcasts_S1000x3x1_S1000x3x64 : S1000x3x1.Broadcasts S1000x3x64
  reduces_S1000x3x64_S1000x64 : S1000x3x64.Reduces [1] S1000x64
  reduces_S1000x64_S1000 : S1000x64.Reduces [1] S1000
  shapeCasts_S1000_S1000x1 : S1000.ShapeCasts S1000x1
  bcast_S_S2000 : S_.BroadcastsInDim S2000 (![] : Fin 0 → Fin S2000.rank)
  gather_S100_S200000x1_S200000_n_0_n_n_0_1_1_wf : GatherDims.WF S100 S200000x1 S200000 [] [0] [] [0] [] 1 ![1]
  gather_S200000_S200000x64x1_S200000x64_n_0_n_n_0_2_1_wf : GatherDims.WF S200000 S200000x64x1 S200000x64 [] [0] [] [0] [] 2 ![1]
  gather_S200000x3_S200000x64x1_S200000x64x3_2_0_n_n_0_2_13_wf : GatherDims.WF S200000x3 S200000x64x1 S200000x64x3 [2] [0] [] [0] [] 2 ![1, 3]
  scatter_S2000_S200000x1_S200000_n_0_0_1_wf : ScatterDims.WF S2000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S200000x1.size a
  hwx0_0 : ∀ i : grid0.Coords, EltTy.bits .f32 = 32 ∨ (Rect.block (s := S200000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S200000x1.size a
  hwx0_1 : ∀ i : grid0.Coords, EltTy.bits .f32 = 32 ∨ (Rect.block (s := S200000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S200000x1.size a
  hwx0_2 : ∀ i : grid0.Coords, EltTy.bits .f32 = 32 ∨ (Rect.block (s := S200000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x3.size a ≤ S200000x3.size a
  hwx0_3 : ∀ i : grid0.Coords, EltTy.bits .f32 = 32 ∨ (Rect.block (s := S200000x3) S1000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x64.size a ≤ S200000x64.size a
  hwx0_4 : ∀ i : grid0.Coords, EltTy.bits .f32 = 32 ∨ (Rect.block (s := S200000x64) S1000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S200000x64.size a
  hwx0_5 : ∀ i : grid0.Coords, EltTy.bits .f32 = 32 ∨ (Rect.block (s := S200000x64) S1000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x64.size a ≤ S200000x64.size a
  hwx0_6 : ∀ i : grid0.Coords, EltTy.bits .f32 = 32 ∨ (Rect.block (s := S200000x64) S1000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S200000x64.size a
  hwx0_7 : ∀ i : grid0.Coords, EltTy.bits .f32 = 32 ∨ (Rect.block (s := S200000x64) S1000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x3x64.size a ≤ S200000x3x64.size a
  hwx0_8 : ∀ i : grid0.Coords, EltTy.bits .f32 = 32 ∨ (Rect.block (s := S200000x3x64) S1000x3x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1.size a ≤ S200000x1.size a
  hwx0_9 : ∀ i : grid0.Coords, EltTy.bits .f32 = 32 ∨ (Rect.block (s := S200000x1) S1000x1.size (cc0_transform_9 i) (hinb0_9 i)).WholeWords (EltTy.packing .f32)

variable [Facts₀]

def gather_S100_S200000x1_S200000_n_0_n_n_0_1_1 : GatherDims S100 S200000x1 S200000 where
  offsetDims := []
  collapsedSliceDims := [0]
  operandBatchingDims := []
  startIndicesBatchingDims := []
  startIndexMap := [0]
  indexVectorDim := 1
  sliceSizes := ![1]
  wf := gather_S100_S200000x1_S200000_n_0_n_n_0_1_1_wf
def gather_S200000_S200000x64x1_S200000x64_n_0_n_n_0_2_1 : GatherDims S200000 S200000x64x1 S200000x64 where
  offsetDims := []
  collapsedSliceDims := [0]
  operandBatchingDims := []
  startIndicesBatchingDims := []
  startIndexMap := [0]
  indexVectorDim := 2
  sliceSizes := ![1]
  wf := gather_S200000_S200000x64x1_S200000x64_n_0_n_n_0_2_1_wf
def gather_S200000x3_S200000x64x1_S200000x64x3_2_0_n_n_0_2_13 : GatherDims S200000x3 S200000x64x1 S200000x64x3 where
  offsetDims := [2]
  collapsedSliceDims := [0]
  operandBatchingDims := []
  startIndicesBatchingDims := []
  startIndexMap := [0]
  indexVectorDim := 2
  sliceSizes := ![1, 3]
  wf := gather_S200000x3_S200000x64x1_S200000x64x3_2_0_n_n_0_2_13_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf

abbrev win0_0 : Pipeline.Window sig grid0 :=
  Pipeline.Window.ofSpec (Memref.whole main_v41) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1000x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1000x3x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v44) S1000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x2 : Shape := ⟨2, ![200000, 2]⟩
abbrev S200000x3 : Shape := ⟨2, ![200000, 3]⟩
abbrev S100 : Shape := ⟨1, ![100]⟩
abbrev S200000 : Shape := ⟨1, ![200000]⟩
abbrev S200000x64 : Shape := ⟨2, ![200000, 64]⟩
abbrev S200000x1 : Shape := ⟨2, ![200000, 1]⟩
abbrev S_ : Shape := ⟨0, ![]⟩
abbrev S200000x64x1 : Shape := ⟨3, ![200000, 64, 1]⟩
abbrev S200000x1x3 : Shape := ⟨3, ![200000, 1, 3]⟩
abbrev S200000x64x3 : Shape := ⟨3, ![200000, 64, 3]⟩
abbrev S2000 : Shape := ⟨1, ![2000]⟩

abbrev nBuf : Space → Nat
  | .hbm => 138
  | .vmem => 0
  | .smem => 0
  | _ => 0

abbrev hbmTy0_0 (i : Nat) : BufTy := match i % 128 with
  | 0 => ⟨S200000x2, .f32⟩
  | 1 => ⟨S200000x3, .f32⟩
  | 2 => ⟨S100, .f32⟩
  | 3 => ⟨S200000, .i32⟩
  | 4 => ⟨S200000x64, .i32⟩
  | 5 => ⟨S200000x64, .i1⟩
  | 6 => ⟨S200000, .i32⟩
  | 7 => ⟨S200000x1, .f32⟩
  | 8 => ⟨S200000, .f32⟩
  | 9 => ⟨S200000x1, .f32⟩
  | 10 => ⟨S200000, .f32⟩
  | 11 => ⟨S200000x1, .f32⟩
  | 12 => ⟨S200000x1, .f32⟩
  | 13 => ⟨S_, .i32⟩
  | 14 => ⟨S200000x64, .i32⟩
  | 15 => ⟨S200000x64, .i1⟩
  | 16 => ⟨S_, .i32⟩
  | 17 => ⟨S200000x64, .i32⟩
  | 18 => ⟨S200000x64, .i32⟩
  | 19 => ⟨S200000x64, .i32⟩
  | 20 => ⟨S200000x64x1, .i32⟩
  | 21 => ⟨S200000x64, .f32⟩
  | 22 => ⟨S_, .i32⟩
  | 23 => ⟨S200000x64, .i32⟩
  | 24 => ⟨S200000x64, .i1⟩
  | 25 => ⟨S_, .i32⟩
  | 26 => ⟨S200000x64, .i32⟩
  | 27 => ⟨S200000x64, .i32⟩
  | 28 => ⟨S200000x64, .i32⟩
  | 29 => ⟨S200000x64x1, .i32⟩
  | 30 => ⟨S200000x64, .f32⟩
  | 31 => ⟨S200000x64, .f32⟩
  | 32 => ⟨S200000x64, .f32⟩
  | 33 => ⟨S200000x64, .f32⟩
  | 34 => ⟨S200000x64, .f32⟩
  | 35 => ⟨S200000x64, .f32⟩
  | 36 => ⟨S200000x64, .f32⟩
  | 37 => ⟨S200000x64, .f32⟩
  | 38 => ⟨S200000x64, .f32⟩
  | 39 => ⟨S_, .f32⟩
  | 40 => ⟨S_, .f32⟩
  | 41 => ⟨S200000x64, .f32⟩
  | 42 => ⟨S200000x64, .f32⟩
  | 43 => ⟨S_, .f32⟩
  | 44 => ⟨S200000x1, .f32⟩
  | 45 => ⟨S200000x1, .f32⟩
  | 46 => ⟨S200000x64, .f32⟩
  | 47 => ⟨S200000x64, .f32⟩
  | 48 => ⟨S200000x64, .f32⟩
  | 49 => ⟨S_, .f32⟩
  | 50 => ⟨S_, .f32⟩
  | 51 => ⟨S200000x64, .f32⟩
  | 52 => ⟨S200000x64, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000, .f32⟩
  | 62 => ⟨S200000x1, .f32⟩
  | 63 => ⟨S_, .f32⟩
  | 64 => ⟨S200000x1, .f32⟩
  | 65 => ⟨S200000x1, .f32⟩
  | 66 => ⟨S_, .i32⟩
  | 67 => ⟨S200000x64, .i32⟩
  | 68 => ⟨S200000x64, .i1⟩
  | 69 => ⟨S_, .i32⟩
  | 70 => ⟨S200000x64, .i32⟩
  | 71 => ⟨S200000x64, .i32⟩
  | 72 => ⟨S200000x64, .i32⟩
  | 73 => ⟨S200000x64x1, .i32⟩
  | 74 => ⟨S200000x64, .f32⟩
  | 75 => ⟨S200000x64, .f32⟩
  | 76 => ⟨S200000x64, .f32⟩
  | 77 => ⟨S_, .f32⟩
  | 78 => ⟨S_, .f32⟩
  | 79 => ⟨S200000x64, .f32⟩
  | 80 => ⟨S200000x64, .f32⟩
  | 81 => ⟨S200000x64, .f32⟩
  | 82 => ⟨S_, .f32⟩
  | 83 => ⟨S200000x64, .f32⟩
  | 84 => ⟨S200000x64, .f32⟩
  | 85 => ⟨S_, .f32⟩
  | 86 => ⟨S200000x64, .f32⟩
  | 87 => ⟨S200000x64, .f32⟩
  | 88 => ⟨S200000x1x3, .f32⟩
  | 89 => ⟨S_, .i32⟩
  | 90 => ⟨S200000x64, .i32⟩
  | 91 => ⟨S200000x64, .i1⟩
  | 92 => ⟨S_, .i32⟩
  | 93 => ⟨S200000x64, .i32⟩
  | 94 => ⟨S200000x64, .i32⟩
  | 95 => ⟨S200000x64, .i32⟩
  | 96 => ⟨S200000x64x1, .i32⟩
  | 97 => ⟨S200000x64x3, .f32⟩
  | 98 => ⟨S200000x64x3, .f32⟩
  | 99 => ⟨S200000x64x3, .f32⟩
  | 100 => ⟨S200000x64x3, .f32⟩
  | 101 => ⟨S_, .f32⟩
  | 102 => ⟨S200000x64, .f32⟩
  | 103 => ⟨S200000x64, .f32⟩
  | 104 => ⟨S_, .f32⟩
  | 105 => ⟨S200000x64, .f32⟩
  | 106 => ⟨S200000x64, .f32⟩
  | 107 => ⟨S200000x64, .f32⟩
  | 108 => ⟨S200000x64, .f32⟩
  | 109 => ⟨S200000x64, .f32⟩
  | 110 => ⟨S200000x64, .f32⟩
  | 111 => ⟨S200000x64, .f32⟩
  | 112 => ⟨S200000x64, .f32⟩
  | 113 => ⟨S200000x64, .f32⟩
  | 114 => ⟨S200000x64, .f32⟩
  | 115 => ⟨S200000x64, .f32⟩
  | 116 => ⟨S_, .f32⟩
  | 117 => ⟨S200000x64, .f32⟩
  | 118 => ⟨S200000x64, .f32⟩
  | 119 => ⟨S_, .f32⟩
  | 120 => ⟨S200000x64, .f32⟩
  | 121 => ⟨S200000x64, .f32⟩
  | 122 => ⟨S200000x64, .f32⟩
  | 123 => ⟨S200000x64, .f32⟩
  | 124 => ⟨S200000x64, .f32⟩
  | 125 => ⟨S200000x64, .f32⟩
  | 126 => ⟨S200000x64, .f32⟩
  | 127 => ⟨S200000x64, .f32⟩
  | _ => ⟨S200000x2, .f32⟩

abbrev hbmTy0_1 (i : Nat) : BufTy := match i % 128 with
  | 0 => ⟨S200000x64, .f32⟩
  | 1 => ⟨S_, .f32⟩
  | 2 => ⟨S200000, .f32⟩
  | 3 => ⟨S_, .f32⟩
  | 4 => ⟨S2000, .f32⟩
  | 5 => ⟨S200000x1, .i32⟩
  | 6 => ⟨S2000, .f32⟩
  | 7 => ⟨S_, .f32⟩
  | 8 => ⟨S2000, .f32⟩
  | 9 => ⟨S2000, .f32⟩
  | _ => ⟨S200000x2, .f32⟩

abbrev hbmTy (i : Nat) : BufTy := match i / 128 with
  | 0 => hbmTy0_0 i
  | 1 => hbmTy0_1 i
  | _ => ⟨S200000x2, .f32⟩

abbrev bufTy : (tb : Table) → Fin (tcTables nBuf tb) → BufTy
  | .hbm, ⟨i, _⟩ => hbmTy i
  | _, _ => ⟨S200000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_call2_v0 : Ref sig .tc := ⟨.hbm, 78, rfl⟩
abbrev main_call2_v1 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S200000x64_S200000x64x1_0_1 : S200000x64.BroadcastsInDim S200000x64x1 (![0, 1] : Fin 2 → Fin S200000x64x1.rank)
  bcast_S200000x1_S200000x64_0_1 : S200000x1.BroadcastsInDim S200000x64 (![0, 1] : Fin 2 → Fin S200000x64.rank)
  bcast_S_S200000x1 : S_.BroadcastsInDim S200000x1 (![] : Fin 0 → Fin S200000x1.rank)
  bcast_S_S200000 : S_.BroadcastsInDim S200000 (![] : Fin 0 → Fin S200000.rank)
  bcast_S200000x3_S200000x1x3_0_2 : S200000x3.BroadcastsInDim S200000x1x3 (![0, 2] : Fin 2 → Fin S200000x1x3.rank)
  bcast_S200000x1x3_S200000x64x3_0_1_2 : S200000x1x3.BroadcastsInDim S200000x64x3 (![0, 1, 2] : Fin 3 → Fin S200000x64x3.rank)
  reducesTo_S200000x64x3_S200000x64_d2 : S200000x64x3.ReducesTo [2] S200000x64
  h_S_ : 0 < S_.numel
  reducesTo_S200000x64_S200000_d1 : S200000x64.ReducesTo [1] S200000
  bcast_S_S2000 : S_.BroadcastsInDim S2000 (![] : Fin 0 → Fin S2000.rank)
  gather_S200000_S200000x64x1_S200000x64_n_0_n_n_0_2_1_wf : GatherDims.WF S200000 S200000x64x1 S200000x64 [] [0] [] [0] [] 2 ![1]
  gather_S100_S200000x1_S200000_n_0_n_n_0_1_1_wf : GatherDims.WF S100 S200000x1 S200000 [] [0] [] [0] [] 1 ![1]
  gather_S200000x3_S200000x64x1_S200000x64x3_2_0_n_n_0_2_13_wf : GatherDims.WF S200000x3 S200000x64x1 S200000x64x3 [2] [0] [] [0] [] 2 ![1, 3]
  scatter_S2000_S200000x1_S200000_n_0_0_1_wf : ScatterDims.WF S2000 S200000x1 S200000 [] [0] [0] 1

variable [Facts₀]

def gather_S200000_S200000x64x1_S200000x64_n_0_n_n_0_2_1 : GatherDims S200000 S200000x64x1 S200000x64 where
  offsetDims := []
  collapsedSliceDims := [0]
  operandBatchingDims := []
  startIndicesBatchingDims := []
  startIndexMap := [0]
  indexVectorDim := 2
  sliceSizes := ![1]
  wf := gather_S200000_S200000x64x1_S200000x64_n_0_n_n_0_2_1_wf
def gather_S100_S200000x1_S200000_n_0_n_n_0_1_1 : GatherDims S100 S200000x1 S200000 where
  offsetDims := []
  collapsedSliceDims := [0]
  operandBatchingDims := []
  startIndicesBatchingDims := []
  startIndexMap := [0]
  indexVectorDim := 1
  sliceSizes := ![1]
  wf := gather_S100_S200000x1_S200000_n_0_n_n_0_1_1_wf
def gather_S200000x3_S200000x64x1_S200000x64x3_2_0_n_n_0_2_13 : GatherDims S200000x3 S200000x64x1 S200000x64x3 where
  offsetDims := [2]
  collapsedSliceDims := [0]
  operandBatchingDims := []
  startIndicesBatchingDims := []
  startIndexMap := [0]
  indexVectorDim := 2
  sliceSizes := ![1, 3]
  wf := gather_S200000x3_S200000x64x1_S200000x64x3_2_0_n_n_0_2_13_wf
def scatter_S2000_S200000x1_S200000_n_0_0_1 : ScatterDims S2000 S200000x1 S200000 where
  updateWindowDims := []
  insertedWindowDims := [0]
  scatterDimsToOperandDims := [0]
  indexVectorDim := 1
  wf := scatter_S2000_S200000x1_S200000_n_0_0_1_wf

class Facts : Prop extends Facts₀ where

variable [Facts]
-- ==== Proof.PairEnergy.lean ====
/-
  One atom pair's damped dispersion energy on the extended reals, in the two arrangements the two programs
  use, and their equality.

  For atom i and its neighbour j, with per-atom parameters (C6, alpha, rr), a pair mask bit b and the squared
  distance s between the two atoms:
    * the combined coefficient  c = 2·C6ᵢ·C6ⱼ / max(C6ᵢ·αⱼ/αᵢ + C6ⱼ·αᵢ/αⱼ, ε)  where the pair is kept, 0 where it is masked;
    * the combined radius term  q = 3·rrᵢ·rrⱼ  where the pair is kept, 1 where it is masked;
    * r₀ = a₁·√q + a₂,  d = √s · (1/Bohr),  and the pair energy  c · (1/(d⁶ + r₀⁶) + s₈·q/(d⁸ + r₀⁸)).
  One arrangement masks by MULTIPLYING with the mask read as a number (1 or 0): m·x for the coefficient and
  m·y + (1 − m)·1 for the radius term; the other SELECTS on the mask bit. On the extended reals 0·x = 0 for
  every x (also an infinite one) and x + 0 = x, so the two agree whatever the parameters are. The maximum
  takes its operands in either order, and r₀⁸ is taken once as ((r₀²·r₀⁴)·r₀)·r₀ and once as (r₀⁴)·(r₀⁴): products
  of eight factors r₀ in a commutative monoid.
-/
import Idealize.ShloMosaic.PureOps.Ideal
import Idealize.ShloMosaic.PureOps.Ideal.Laws
import Idealize.ShloMosaic.Lib.IdealHost
import Idealize.ShloMosaic.Lib.ValueIdx

noncomputable section

namespace Cert.Dispersion

open Idealize.ShloMosaic Idealize.ShloMosaic.ValueIdx

/-! ## The literals both programs carry (the same words on both sides: never evaluated, but for 0 and 1) -/

/-- The floor ε of the combination rule's denominator. -/
abbrev eps : EReal := Ideal.ofBits .f32 0x38D1B717#32
abbrev two : EReal := Ideal.ofBits .f32 0x40000000#32
abbrev three : EReal := Ideal.ofBits .f32 0x40400000#32
abbrev one : EReal := Ideal.ofBits .f32 0x3F800000#32
abbrev zero : EReal := Ideal.ofBits .f32 0x00000000#32
/-- Becke–Johnson damping: r₀ = a₁·√q + a₂. -/
abbrev a1 : EReal := Ideal.ofBits .f32 0x3EFD5BAB#32
abbrev a2 : EReal := Ideal.ofBits .f32 0x40B76304#32
/-- Ångström to Bohr. -/
abbrev invBohr : EReal := Ideal.ofBits .f32 0x3FF1E28C#32
/-- The eighth-order term's weight s₈. -/
abbrev s8 : EReal := Ideal.ofBits .f32 0x3F4A3137#32

theorem one_eq : one = 1 := Ideal.ofBits_one_f32
theorem zero_eq : zero = 0 := Ideal.ofBits_zero_f32

/-! ## The pieces -/

/-- The combination rule's sum C6ᵢ·αⱼ/αᵢ + C6ⱼ·αᵢ/αⱼ. -/
def mix (c6i ai c6j aj : EReal) : EReal := Ideal.div (c6i * aj) ai + Ideal.div (c6j * ai) aj

/-- The damping radius from the combined radius term. -/
def radius (q : EReal) : EReal := a1 * Ideal.sqrt q + a2

/-- The distance in Bohr from the squared distance. -/
def dist (s : EReal) : EReal := Ideal.sqrt s * invBohr

/-- x⁶ as (x²)·((x²)·(x²)): both programs take it so. -/
def pow6 (x : EReal) : EReal := (x * x) * ((x * x) * (x * x))

/-- x⁸ continued from x⁶: ((x⁶)·x)·x. -/
def pow8Chain (x : EReal) : EReal := pow6 x * x * x

/-- x⁸ by squaring three times: (x⁴)·(x⁴). -/
def pow8Square (x : EReal) : EReal := ((x * x) * (x * x)) * ((x * x) * (x * x))

theorem pow8Chain_eq_pow8Square (x : EReal) : pow8Chain x = pow8Square x := by
  unfold pow8Chain pow8Square pow6
  simp only [mul_assoc]

/-- The pair energy from the combined coefficient c, the combined radius term q, the squared distance s and
    r₀⁸ as the program at hand computes it. -/
def damped (c q s p8 : EReal) : EReal :=
  c * (Ideal.div one (pow6 (dist s) + pow6 (radius q)) + Ideal.div (s8 * q) (pow8Chain (dist s) + p8))

/-! ## The two arrangements -/

/-- Masking by multiplication: the mask as a number m. -/
def pairMul (c6i ai rri c6j aj rrj m s : EReal) : EReal :=
  damped (m * Ideal.div ((two * c6i) * c6j) (max (mix c6i ai c6j aj) eps))
    (m * ((three * rri) * rrj) + (one - m) * one) s
    (pow8Chain (radius (m * ((three * rri) * rrj) + (one - m) * one)))

/-- Masking by selection on the mask bit b. -/
def pairSel (c6i ai rri c6j aj rrj : EReal) (b : BitVec 1) (s : EReal) : EReal :=
  damped (Scalar.select b (Ideal.div ((two * c6i) * c6j) (max eps (mix c6i ai c6j aj))) zero)
    (Scalar.select b ((three * rri) * rrj) one) s
    (pow8Square (radius (Scalar.select b ((three * rri) * rrj) one)))

/-- The mask bit read as a number: 1 or 0. -/
abbrev maskNum (b : BitVec 1) : EReal := ((b.toNat : ℝ) : EReal)

theorem maskNum_one : maskNum 1#1 = 1 := by simp [maskNum]
theorem maskNum_zero : maskNum 0#1 = 0 := by simp [maskNum]

/-- THE LAW that joins the two programs: with the mask read as the number 1 or 0, masking by multiplication is
    masking by selection. -/
theorem pairMul_eq_pairSel (c6i ai rri c6j aj rrj : EReal) (b : BitVec 1) (s : EReal) :
    pairMul c6i ai rri c6j aj rrj (maskNum b) s = pairSel c6i ai rri c6j aj rrj b s := by
  unfold pairMul pairSel
  rw [pow8Chain_eq_pow8Square (radius _), max_comm (mix c6i ai c6j aj) eps]
  rcases BitVec.eq_zero_or_eq_one b with h | h
  · subst h
    rw [select_zero, select_zero, maskNum_zero, zero_mul, zero_mul, one_eq, zero_eq, sub_zero, one_mul, zero_add]
  · subst h
    rw [select_one, select_one, maskNum_one, one_mul, one_mul, one_eq]
    have h0 : (1 : EReal) - 1 = 0 := by
      rw [show (1 : EReal) = ((1 : ℝ) : EReal) from rfl, ← EReal.coe_sub, sub_self]; rfl
    rw [h0, zero_mul, add_zero]

end Cert.Dispersion

end
-- ==== Proof.BlockReads.lean ====
/-
  The layout operations of one 1000-atom block, read at an index by coordinates.

  A block holds 1000 atoms; per atom there are 64 neighbours and 3 Cartesian coordinates. The body spreads a
  per-atom column [1000,1] over the neighbours, appends a unit neighbour axis to the atoms' coordinates
  [1000,3] → [1000,3,1] and spreads it, sums the squared coordinate differences over the 3 coordinates
  (axis 1 of [1000,3,64]) and the pair energies over the 64 neighbours (axis 1 of [1000,64]), and stores
  the per-atom sums [1000] as a column [1000,1]. Each reads ONE element of its operand, or a sum over one
  axis's coordinates.
-/
import Idealize.ShloMosaic.Lib.Pipeline.Value
import Idealize.ShloMosaic.Lib.ValueIdx
import Idealize.ShloMosaic.PureOps.Ideal.Laws

noncomputable section

open scoped BigOperators

namespace Cert.Dispersion

open Idealize.ShloMosaic Idealize.ShloMosaic.ValueIdx

section Layout
variable {α : Type}

/-- A per-atom column spread over the 64 neighbours reads the atom's entry at every neighbour. -/
theorem spreadColumn_apply (v : (⟨2, ![1000, 1]⟩ : Shape).Idx → α)
    (h : (⟨2, ![1000, 1]⟩ : Shape).Broadcasts ⟨2, ![1000, 64]⟩) (r : Fin 1000) (k : Fin 64) :
    broadcastTo ⟨2, ![1000, 64]⟩ v h (ix2 r k) = v (ix2 r 0) :=
  broadcastTo_apply v h (ix2 r k) (ix2 r 0) (fun a => match a with
    | ⟨0, _⟩ => by show r.val = if (1000 : Nat) = 1 then 0 else r.val; rw [if_neg (by decide)]
    | ⟨1, _⟩ => by show (0 : Nat) = if (1 : Nat) = 1 then 0 else k.val; rw [if_pos rfl])

/-- The atoms' coordinates with a unit neighbour axis appended read the coordinate itself. -/
theorem unitLane_apply (v : (⟨2, ![1000, 3]⟩ : Shape).Idx → α)
    (h : (⟨2, ![1000, 3]⟩ : Shape).ShapeCasts ⟨3, ![1000, 3, 1]⟩) (r : Fin 1000) (x : Fin 3) (z : Fin 1) :
    shapeCast ⟨3, ![1000, 3, 1]⟩ v h (ix3 r x z) = v (ix2 r x) :=
  shapeCast_apply v h (ix3 r x z) (ix2 r x) (by
    rw [Shape.rowMajor_val_two, Shape.rowMajor_val_three]
    show r.val * 3 + x.val = (r.val * 3 + x.val) * 1 + z.val
    have := z.isLt; omega)

/-- … and spread over the 64 neighbours it reads the unit lane at every neighbour. -/
theorem spreadLane_apply (v : (⟨3, ![1000, 3, 1]⟩ : Shape).Idx → α)
    (h : (⟨3, ![1000, 3, 1]⟩ : Shape).Broadcasts ⟨3, ![1000, 3, 64]⟩) (r : Fin 1000) (x : Fin 3) (k : Fin 64) :
    broadcastTo ⟨3, ![1000, 3, 64]⟩ v h (ix3 r x k) = v (ix3 r x 0) :=
  broadcastTo_apply v h (ix3 r x k) (ix3 r x 0) (fun a => match a with
    | ⟨0, _⟩ => by show r.val = if (1000 : Nat) = 1 then 0 else r.val; rw [if_neg (by decide)]
    | ⟨1, _⟩ => by show x.val = if (3 : Nat) = 1 then 0 else x.val; rw [if_neg (by decide)]
    | ⟨2, _⟩ => by show (0 : Nat) = if (1 : Nat) = 1 then 0 else k.val; rw [if_pos rfl])

/-- The per-atom sums [1000] stored as a column [1000,1] read the atom's sum. -/
theorem asColumn_apply (v : (⟨1, ![1000]⟩ : Shape).Idx → α)
    (h : (⟨1, ![1000]⟩ : Shape).ShapeCasts ⟨2, ![1000, 1]⟩) (r : Fin 1000) (z : Fin 1) :
    shapeCast ⟨2, ![1000, 1]⟩ v h (ix2 r z) = v (ix1 r) :=
  shapeCast_apply v h (ix2 r z) (ix1 r) (by
    rw [Shape.rowMajor_val_one, Shape.rowMajor_val_two]
    show r.val = r.val * 1 + z.val
    have := z.isLt; omega)

end Layout

/-! ## The two sums, at `Ideal` -/

/-- The sum over the 3 coordinates (axis 1 of [1000,3,64]) at atom r and neighbour k. -/
theorem sumCoords_apply (v : FVec Ideal ⟨3, ![1000, 3, 64]⟩ .f32) (acc : BitVec 32)
    (h : Shape.Reduces ⟨3, ![1000, 3, 64]⟩ [1] ⟨2, ![1000, 64]⟩) (hφ : FKind.Formats .f32)
    (hacc : acc = FKind.add.neutral .f32 hφ) (r : Fin 1000) (k : Fin 64) :
    multiReduction .add [1] ⟨2, ![1000, 64]⟩ v acc h hφ hacc (ix2 r k) = ∑ x : Fin 3, v (ix3 r x k) :=
  (Ideal.multiReduction_add_single v acc h hφ hacc (ix2 r k)).trans
    (Finset.sum_congr rfl fun x _ => congrArg v (funext fun a => Fin.ext (by
      match a with | ⟨0, _⟩ => rfl | ⟨1, _⟩ => rfl | ⟨2, _⟩ => rfl)))

/-- The sum over the 64 neighbours (axis 1 of [1000,64]) at atom r. -/
theorem sumNeighbours_apply (v : FVec Ideal ⟨2, ![1000, 64]⟩ .f32) (acc : BitVec 32)
    (h : Shape.Reduces ⟨2, ![1000, 64]⟩ [1] ⟨1, ![1000]⟩) (hφ : FKind.Formats .f32)
    (hacc : acc = FKind.add.neutral .f32 hφ) (r : Fin 1000) :
    multiReduction .add [1] ⟨1, ![1000]⟩ v acc h hφ hacc (ix1 r) = ∑ k : Fin 64, v (ix2 r k) :=
  (Ideal.multiReduction_add_single v acc h hφ hacc (ix1 r)).trans
    (Finset.sum_congr rfl fun k _ => congrArg v (funext fun a => Fin.ext (by
      match a with | ⟨0, _⟩ => rfl | ⟨1, _⟩ => rfl)))

/-- A square root at an index is the element's. -/
theorem sqrt_apply {s : Shape} {φ : FTy} (a : FVec Ideal s φ) (i : s.Idx) : sqrt a i = Ideal.sqrt (a i) := rfl

end Cert.Dispersion

end
-- ==== Proof.KernelPayload.lean ====
/-
  What the kernel body stores for one 1000-atom block, read at an atom.

  From the block's nine loaded pieces — the atoms' C6, alpha and rr columns, their coordinates, the 64
  neighbours' C6, alpha and rr, the pair mask as numbers and the neighbours' coordinates — the body stores a
  column whose entry at atom r is the sum over the 64 neighbours k of the pair energy in the arrangement
  that masks by multiplication, at the squared distance  ∑ₓ (coordᵣ[x] − coord_{nb(r,k)}[x])²  over the three
  Cartesian coordinates.
-/
import proofs.«138134_j18580028522577_1_alg».proof.Proof.Gen.KernelIdeal.Skeleton
import proofs.«138134_j18580028522577_1_alg».proof.Proof.PairEnergy
import proofs.«138134_j18580028522577_1_alg».proof.Proof.BlockReads

noncomputable section

open scoped BigOperators

namespace Cert.Dispersion.Kernel

open Idealize.ShloMosaic Idealize.ShloMosaic.ValueIdx Cert.KernelIdeal Cert.KernelIdeal.Gen Cert.Dispersion

/-- The squared distance between atom r of the block and its k-th neighbour. -/
def sqDist (xi : Vec Ideal S1000x3 .f32) (xj : Vec Ideal S1000x3x64 .f32) (r : Fin 1000) (k : Fin 64) : EReal :=
  ∑ x : Fin 3, (xi (ix2 r x) - xj (ix3 r x k)) * (xi (ix2 r x) - xj (ix3 r x k))

/-- The mask piece as loaded. -/
theorem maskPiece_eq (x7 : Vec Ideal S1000x64 .f32) : k0_pay2 (F := Ideal) x7 = x7 :=
  shapeCast_self _ _

/-- The neighbours' coordinates as loaded. -/
theorem coordPiece_eq (x8 : Vec Ideal S1000x3x64 .f32) : k0_pay3 (F := Ideal) x8 = x8 :=
  shapeCast_self _ _

/-- The masked combined coefficient at (r, k): the mask number times 2·C6ᵢ·C6ⱼ over the floored mix. -/
theorem coeffPiece_apply (x0 x1 : Vec Ideal S1000x1 .f32) (x4 x5 x7 : Vec Ideal S1000x64 .f32) (r : Fin 1000) (k : Fin 64) :
    k0_pay4 (F := Ideal) x0 x1 x4 x5 x7 (ix2 r k)
      = x7 (ix2 r k) * Ideal.div ((two * x0 (ix2 r 0)) * x4 (ix2 r k))
          (max (mix (x0 (ix2 r 0)) (x1 (ix2 r 0)) (x4 (ix2 r k)) (x5 (ix2 r k))) eps) := by
  unfold k0_pay4 mix
  simp only [maskPiece_eq, shapeCast_self, mulf_apply, divf_apply, addf_apply, maximumf_apply, broadcast_apply,
    spreadColumn_apply]
  rfl

/-- The unmasked combined radius term at (r, k): 3·rrᵢ·rrⱼ. -/
theorem radiusPiece_apply (x2 : Vec Ideal S1000x1 .f32) (x6 : Vec Ideal S1000x64 .f32) (r : Fin 1000) (k : Fin 64) :
    k0_pay5 (F := Ideal) x2 x6 (ix2 r k) = (three * x2 (ix2 r 0)) * x6 (ix2 r k) := by
  unfold k0_pay5
  simp only [shapeCast_self, mulf_apply, broadcast_apply, spreadColumn_apply]
  rfl

/-- The stored column at atom r, from the mask m, the neighbours' coordinates, the masked coefficient c and the
    unmasked radius term y: the sum over the neighbours of the damped pair energy. -/
theorem storedColumn_apply (x3 : Vec Ideal S1000x3 .f32) (m : FVec Ideal S1000x64 .f32) (xj : FVec Ideal S1000x3x64 .f32)
    (c y : FVec Ideal S1000x64 .f32) (r : Fin 1000) (z : Fin 1) :
    k0_pay1 (F := Ideal) x3 m xj c y (ix2 r z)
      = ∑ k : Fin 64, damped (c (ix2 r k)) (m (ix2 r k) * y (ix2 r k) + (one - m (ix2 r k)) * one) (sqDist x3 xj r k)
          (pow8Chain (radius (m (ix2 r k) * y (ix2 r k) + (one - m (ix2 r k)) * one))) := by
  unfold k0_pay1
  refine (asColumn_apply _ _ r z).trans ?_
  refine (sumNeighbours_apply _ _ _ _ _ r).trans ?_
  refine Finset.sum_congr rfl fun k _ => ?_
  have hs : multiReduction .add [1] S1000x64
      (mulf (subf (broadcastTo S1000x3x64 (shapeCast S1000x3x1 x3 Facts₀.shapeCasts_S1000x3_S1000x3x1) Facts₀.broadcasts_S1000x3x1_S1000x3x64) xj)
            (subf (broadcastTo S1000x3x64 (shapeCast S1000x3x1 x3 Facts₀.shapeCasts_S1000x3_S1000x3x1) Facts₀.broadcasts_S1000x3x1_S1000x3x64) xj))
      0x00000000#32 Facts₀.reduces_S1000x3x64_S1000x64 (.inl rfl) rfl (ix2 r k) = sqDist x3 xj r k := by
    refine (sumCoords_apply _ _ _ _ _ r k).trans ?_
    unfold sqDist
    refine Finset.sum_congr rfl fun x _ => ?_
    simp only [mulf_apply, subf_apply, spreadLane_apply, unitLane_apply]
  unfold damped pow6 pow8Chain dist radius pow6
  simp only [mulf_apply, divf_apply, addf_apply, subf_apply, broadcast_apply, sqrt_apply]
  rw [hs]
  rfl

end Cert.Dispersion.Kernel

end
-- ==== Proof.KernelArray.lean ====
/-
  From blocks to the array: after the region, the kernel's per-atom energy column over ALL 200000 atoms.

  Grid point t works on atoms 1000·t … 1000·t + 999: every window's block index along the atom axis is t and
  0 along the others, so atom r of block t is atom n = 1000·t + r of each array, and the blocks of the output
  column tile it. Hence the output array ends holding, at atom n, the sum over n's 64 neighbours of the pair
  energy (multiplication arrangement) of the nine arrays the region is launched on, read at n.
-/
import proofs.«138134_j18580028522577_1_alg».proof.Proof.Gen.KernelIdeal.Frame
import proofs.«138134_j18580028522577_1_alg».proof.Proof.KernelPayload

set_option maxRecDepth 16384

noncomputable section

open scoped BigOperators

namespace Cert.Dispersion.Kernel

open Idealize.ShloMosaic Idealize.ShloMosaic.TcCoe Idealize.ShloMosaic.ValueIdx Idealize.SL.Sem
open Cert.KernelIdeal Cert.KernelIdeal.Gen Cert.Dispersion
open Idealize.ShloMosaic.Pipeline (Dat)

variable (m : (ℓ : Loc nD τ sig) → Buf (Elt Ideal) ℓ)

/-- The per-atom energy column as ONE function of the nine arrays the region reads: at atom n the sum over its
    64 neighbours of the pair energy, the mask array holding numbers. -/
def atomColumn (c6i ai rri : Vec Ideal S200000x1 .f32) (xi : Vec Ideal S200000x3 .f32)
    (c6j aj rrj mask : Vec Ideal S200000x64 .f32) (xj : Vec Ideal S200000x3x64 .f32) : Vec Ideal S200000x1 .f32 :=
  fun j => ∑ k : Fin 64, pairMul (c6i (ix2 (j 0) 0)) (ai (ix2 (j 0) 0)) (rri (ix2 (j 0) 0))
    (c6j (ix2 (j 0) k)) (aj (ix2 (j 0) k)) (rrj (ix2 (j 0) k)) (mask (ix2 (j 0) k))
    (∑ x : Fin 3, (xi (ix2 (j 0) x) - xj (ix3 (j 0) x k)) * (xi (ix2 (j 0) x) - xj (ix3 (j 0) x k)))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the grid: along the atom axis every window's block index is the
    output's, which is the point's own number; along every other axis it is 0. -/
theorem blockIndex_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- Atom r of block t, as an atom of the whole arrays. -/
def atomOf (t : Fin cfg0.N) (r : Fin 1000) : Fin 200000 :=
  ⟨t.val * 1000 + r.val, by have h : t.val < grid0.N := t.isLt; rw [N_0] at h; have := r.isLt; omega⟩

/-- Where the output's block at point t puts its entry (r, z): at atom 1000·t + r. -/
theorem outEmb (t : Fin cfg0.N) (r : Fin 1000) (z : Fin 1) :
    (((cfg0.win 9).blk t).view.emb (ix2 r z) : S200000x1.Idx) = ix2 (atomOf t r) z := by
  obtain ⟨e0, e1, -⟩ := blockIndex_facts t
  funext a; apply Fin.ext
  match a with
  | ⟨0, _⟩ => show win0_9.index t (0 : Fin 2) * 1000 + 1 * r.val = t.val * 1000 + r.val; omega
  | ⟨1, _⟩ => show win0_9.index t (1 : Fin 2) * 1 + 1 * z.val = z.val; omega

/-! ## Each input block read at its place in its array -/

theorem c6iBlock_apply (c : Dev nD) (t : Fin cfg0.N) (r : Fin 1000) :
    iblk m c 0 t (ix2 r 0) = V m c main_v41 (ix2 (atomOf t r) 0) := by
  obtain ⟨-, -, e0, e1, -⟩ := blockIndex_facts t
  show V m c main_v41 (((cfg0.win 0).blk t).view.emb (ix2 r 0)) = _
  refine congrArg (V m c main_v41) (funext fun a => Fin.ext ?_)
  match a with
  | ⟨0, _⟩ => show win0_0.index t (0 : Fin 2) * 1000 + 1 * r.val = t.val * 1000 + r.val; omega
  | ⟨1, _⟩ => show win0_0.index t (1 : Fin 2) * 1 + 1 * 0 = 0; omega

theorem aiBlock_apply (c : Dev nD) (t : Fin cfg0.N) (r : Fin 1000) :
    iblk m c 1 t (ix2 r 0) = V m c main_v42 (ix2 (atomOf t r) 0) := by
  obtain ⟨-, -, -, -, e0, e1, -⟩ := blockIndex_facts t
  show V m c main_v42 (((cfg0.win 1).blk t).view.emb (ix2 r 0)) = _
  refine congrArg (V m c main_v42) (funext fun a => Fin.ext ?_)
  match a with
  | ⟨0, _⟩ => show win0_1.index t (0 : Fin 2) * 1000 + 1 * r.val = t.val * 1000 + r.val; omega
  | ⟨1, _⟩ => show win0_1.index t (1 : Fin 2) * 1 + 1 * 0 = 0; omega

theorem rriBlock_apply (c : Dev nD) (t : Fin cfg0.N) (r : Fin 1000) :
    iblk m c 2 t (ix2 r 0) = V m c main_v43 (ix2 (atomOf t r) 0) := by
  obtain ⟨-, -, -, -, -, -, e0, e1, -⟩ := blockIndex_facts t
  show V m c main_v43 (((cfg0.win 2).blk t).view.emb (ix2 r 0)) = _
  refine congrArg (V m c main_v43) (funext fun a => Fin.ext ?_)
  match a with
  | ⟨0, _⟩ => show win0_2.index t (0 : Fin 2) * 1000 + 1 * r.val = t.val * 1000 + r.val; omega
  | ⟨1, _⟩ => show win0_2.index t (1 : Fin 2) * 1 + 1 * 0 = 0; omega

theorem xiBlock_apply (c : Dev nD) (t : Fin cfg0.N) (r : Fin 1000) (x : Fin 3) :
    iblk m c 3 t (ix2 r x) = V m c main_arg1 (ix2 (atomOf t r) x) := by
  obtain ⟨-, -, -, -, -, -, -, -, e0, e1, -⟩ := blockIndex_facts t
  show V m c main_arg1 (((cfg0.win 3).blk t).view.emb (ix2 r x)) = _
  refine congrArg (V m c main_arg1) (funext fun a => Fin.ext ?_)
  match a with
  | ⟨0, _⟩ => show win0_3.index t (0 : Fin 2) * 1000 + 1 * r.val = t.val * 1000 + r.val; omega
  | ⟨1, _⟩ => show win0_3.index t (1 : Fin 2) * 3 + 1 * x.val = x.val; omega

theorem c6jBlock_apply (c : Dev nD) (t : Fin cfg0.N) (r : Fin 1000) (k : Fin 64) :
    iblk m c 4 t (ix2 r k) = V m c main_v17 (ix2 (atomOf t r) k) := by
  obtain ⟨-, -, -, -, -, -, -, -, -, -, e0, e1, -⟩ := blockIndex_facts t
  show V m c main_v17 (((cfg0.win 4).blk t).view.emb (ix2 r k)) = _
  refine congrArg (V m c main_v17) (funext fun a => Fin.ext ?_)
  match a with
  | ⟨0, _⟩ => show win0_4.index t (0 : Fin 2) * 1000 + 1 * r.val = t.val * 1000 + r.val; omega
  | ⟨1, _⟩ => show win0_4.index t (1 : Fin 2) * 64 + 1 * k.val = k.val; omega

theorem ajBlock_apply (c : Dev nD) (t : Fin cfg0.N) (r : Fin 1000) (k : Fin 64) :
    iblk m c 5 t (ix2 r k) = V m c main_v24 (ix2 (atomOf t r) k) := by
  obtain ⟨-, -, -, -, -, -, -, -, -, -, -, -, e0, e1, -⟩ := blockIndex_facts t
  show V m c main_v24 (((cfg0.win 5).blk t).view.emb (ix2 r k)) = _
  refine congrArg (V m c main_v24) (funext fun a => Fin.ext ?_)
  match a with
  | ⟨0, _⟩ => show win0_5.index t (0 : Fin 2) * 1000 + 1 * r.val = t.val * 1000 + r.val; omega
  | ⟨1, _⟩ => show win0_5.index t (1 : Fin 2) * 64 + 1 * k.val = k.val; omega

theorem rrjBlock_apply (c : Dev nD) (t : Fin cfg0.N) (r : Fin 1000) (k : Fin 64) :
    iblk m c 6 t (ix2 r k) = V m c main_v31 (ix2 (atomOf t r) k) := by
  obtain ⟨-, -, -, -, -, -, -, -, -, -, -, -, -, -, e0, e1, -⟩ := blockIndex_facts t
  show V m c main_v31 (((cfg0.win 6).blk t).view.emb (ix2 r k)) = _
  refine congrArg (V m c main_v31) (funext fun a => Fin.ext ?_)
  match a with
  | ⟨0, _⟩ => show win0_6.index t (0 : Fin 2) * 1000 + 1 * r.val = t.val * 1000 + r.val; omega
  | ⟨1, _⟩ => show win0_6.index t (1 : Fin 2) * 64 + 1 * k.val = k.val; omega

theorem maskBlock_apply (c : Dev nD) (t : Fin cfg0.N) (r : Fin 1000) (k : Fin 64) :
    iblk m c 7 t (ix2 r k) = V m c main_v40 (ix2 (atomOf t r) k) := by
  obtain ⟨-, -, -, -, -, -, -, -, -, -, -, -, -, -, -, -, e0, e1, -⟩ := blockIndex_facts t
  show V m c main_v40 (((cfg0.win 7).blk t).view.emb (ix2 r k)) = _
  refine congrArg (V m c main_v40) (funext fun a => Fin.ext ?_)
  match a with
  | ⟨0, _⟩ => show win0_7.index t (0 : Fin 2) * 1000 + 1 * r.val = t.val * 1000 + r.val; omega
  | ⟨1, _⟩ => show win0_7.index t (1 : Fin 2) * 64 + 1 * k.val = k.val; omega

theorem xjBlock_apply (c : Dev nD) (t : Fin cfg0.N) (r : Fin 1000) (x : Fin 3) (k : Fin 64) :
    iblk m c 8 t (ix3 r x k) = V m c main_v39 (ix3 (atomOf t r) x k) := by
  obtain ⟨-, -, -, -, -, -, -, -, -, -, -, -, -, -, -, -, -, -, e0, e1, e2⟩ := blockIndex_facts t
  show V m c main_v39 (((cfg0.win 8).blk t).view.emb (ix3 r x k)) = _
  refine congrArg (V m c main_v39) (funext fun a => Fin.ext ?_)
  match a with
  | ⟨0, _⟩ => show win0_8.index t (0 : Fin 3) * 1000 + 1 * r.val = t.val * 1000 + r.val; omega
  | ⟨1, _⟩ => show win0_8.index t (1 : Fin 3) * 3 + 1 * x.val = x.val; omega
  | ⟨2, _⟩ => show win0_8.index t (2 : Fin 3) * 64 + 1 * k.val = k.val; omega

/-! ## What point t writes back, the cover, and the array after the region -/

/-- WHAT POINT t WRITES BACK is block t of the per-atom energy column of the arrays as the region finds them. -/
theorem flushed_eq (c : Dev nD) (t : Fin cfg0.N) :
    (dats m 0 c).flushed 9 t = ((cfg0.win 9).blk t).view.read (Elt Ideal)
      (atomColumn (V m c main_v41) (V m c main_v42) (V m c main_v43) (V m c main_arg1) (V m c main_v17) (V m c main_v24)
        (V m c main_v31) (V m c main_v40) (V m c main_v39)) := by
  show (cfg0.win 9).cut (grid0.coords t) ((dats m 0 c).after 9 t) = _
  rw [after0_9]
  unfold out0_9
  rw [View.canon_unit_zero zeros2]
  simp only [View.ld_unit_zero (S := S1000x1) zeros2, View.ld_unit_zero (S := S1000x3) zeros2,
    View.ld_unit_zero (S := S1000x64) zeros2, View.ld_unit_zero (S := S1000x3x64) zeros3]
  refine funext fun (j : S1000x1.Idx) => ?_
  obtain ⟨r, z, rfl⟩ : ∃ (r : Fin 1000) (z : Fin 1), j = ix2 r z := ⟨j 0, j 1, eq_ix2 j⟩
  show k0_pay1 (F := Ideal) (iblk m c 3 t) (k0_pay2 (iblk m c 7 t)) (k0_pay3 (iblk m c 8 t))
      (k0_pay4 (iblk m c 0 t) (iblk m c 1 t) (iblk m c 4 t) (iblk m c 5 t) (iblk m c 7 t)) (k0_pay5 (iblk m c 2 t) (iblk m c 6 t)) (ix2 r z)
    = atomColumn (V m c main_v41) (V m c main_v42) (V m c main_v43) (V m c main_arg1) (V m c main_v17) (V m c main_v24)
        (V m c main_v31) (V m c main_v40) (V m c main_v39) (((cfg0.win 9).blk t).view.emb (ix2 r z))
  rw [outEmb t r z]
  refine (storedColumn_apply (iblk m c 3 t) (k0_pay2 (iblk m c 7 t)) (k0_pay3 (iblk m c 8 t))
      (k0_pay4 (iblk m c 0 t) (iblk m c 1 t) (iblk m c 4 t) (iblk m c 5 t) (iblk m c 7 t)) (k0_pay5 (iblk m c 2 t) (iblk m c 6 t)) r z).trans ?_
  unfold atomColumn pairMul
  refine Finset.sum_congr rfl fun k _ => ?_
  rw [coeffPiece_apply (iblk m c 0 t) (iblk m c 1 t) (iblk m c 4 t) (iblk m c 5 t) (iblk m c 7 t) r k,
    radiusPiece_apply (iblk m c 2 t) (iblk m c 6 t) r k, maskPiece_eq (iblk m c 7 t), coordPiece_eq (iblk m c 8 t)]
  unfold sqDist
  simp only [c6iBlock_apply m c t r, aiBlock_apply m c t r, rriBlock_apply m c t r, xiBlock_apply m c t r,
    c6jBlock_apply m c t r, ajBlock_apply m c t r, rrjBlock_apply m c t r, maskBlock_apply m c t r, xjBlock_apply m c t r]

/-- An atom is in point t's block iff each coordinate is in the block's range. -/
theorem mem_blk (t : Fin cfg0.N) (i : S200000x1.Idx) :
    i ∈ ((cfg0.win 9).blk t).view.set ↔ ∀ a : Fin 2, win0_9.index t a * S1000x1.size a ≤ (i a).val ∧ (i a).val < win0_9.index t a * S1000x1.size a + S1000x1.size a := by
  show i ∈ ((View.whole main_v44).slice (win0_9.rect t)).set ↔ _
  rw [View.set_slice_whole, Rect.mem_set_unit]
  exact Iff.rfl

/-- The output's blocks tile the column: atom n is in the block of point n / 1000. -/
theorem covered (i : S200000x1.Idx) :
    ∃ t : Fin cfg0.N, (cfg0.win 9).flush t = true ∧ i ∈ ((cfg0.win 9).blk t).view.set := by
  have hi0 : (i 0).val < 200000 := (i 0).isLt
  have hi1 : (i 1).val < 1 := (i 1).isLt
  have hN : (i 0).val / 1000 < cfg0.N := by show _ < grid0.N; rw [N_0]; omega
  refine ⟨⟨(i 0).val / 1000, hN⟩, flush0_9 _, ?_⟩
  obtain ⟨e0, e1, -⟩ := blockIndex_facts ⟨(i 0).val / 1000, hN⟩
  have e0' : win0_9.index ⟨(i 0).val / 1000, hN⟩ (0 : Fin 2) = (i 0).val / 1000 := e0
  rw [mem_blk]
  intro a
  match a with
  | ⟨0, _⟩ => show win0_9.index ⟨(i 0).val / 1000, hN⟩ (0 : Fin 2) * 1000 ≤ (i 0).val ∧ (i 0).val < win0_9.index ⟨(i 0).val / 1000, hN⟩ (0 : Fin 2) * 1000 + 1000; omega
  | ⟨1, _⟩ => show win0_9.index ⟨(i 0).val / 1000, hN⟩ (1 : Fin 2) * 1 ≤ (i 1).val ∧ (i 1).val < win0_9.index ⟨(i 0).val / 1000, hN⟩ (1 : Fin 2) * 1 + 1; omega

/-- THE ARRAY after the region: the per-atom energy column of the arrays the region was launched on. -/
theorem outArray_eq (c : Dev nD) :
    (dats m 0 c).arrAt 9 cfg0.N = atomColumn (V m c main_v41) (V m c main_v42) (V m c main_v43) (V m c main_arg1)
      (V m c main_v17) (V m c main_v24) (V m c main_v31) (V m c main_v40) (V m c main_v39) :=
  (dats m 0 c).arrAt_eq_of_cover 9 _ (fun t _ => flushed_eq m c t) covered

end Cert.Dispersion.Kernel

end
-- ==== Proof.ReferenceAtom.lean ====
/-
  The reference's per-atom energy, read at an atom.

  The reference computes, for all 200000 atoms at once, the combined coefficient and radius term by selection on
  the pair mask, the distances from the gathered neighbour coordinates, the damped pair energies, and their sum
  over the 64 neighbours. Read at atom n — one operation at a time, each through its own index — this is the
  sum over n's neighbours k of the pair energy in the arrangement that masks by selection, of the per-atom
  parameters at n, the gathered neighbour parameters at (n, k), the mask bit at (n, k), and the squared distance
  ∑ₓ (coordₙ[x] − coord_{nb(n,k)}[x])². The gathers stay as they are printed: both programs gather alike.
-/
import proofs.«138134_j18580028522577_1_alg».proof.Proof.Gen.ReferenceIdeal.Read
import proofs.«138134_j18580028522577_1_alg».proof.Proof.PairEnergy

noncomputable section

open scoped BigOperators

namespace Cert.Dispersion.Reference

open Idealize.ShloMosaic Idealize.ShloMosaic.ValueIdx Cert.ReferenceIdeal Cert.ReferenceIdeal.Read Cert.Dispersion

variable (a0 : (⟨S200000x2, .f32⟩ : BufTy).Contents (Elt Ideal)) (a1 : (⟨S200000x3, .f32⟩ : BufTy).Contents (Elt Ideal))
  (a2 : (⟨S100, .f32⟩ : BufTy).Contents (Elt Ideal)) (a3 : (⟨S200000, .i32⟩ : BufTy).Contents (Elt Ideal))
  (a4 : (⟨S200000x64, .i32⟩ : BufTy).Contents (Elt Ideal)) (a5 : (⟨S200000x64, .i1⟩ : BufTy).Contents (Elt Ideal))

/-! ## The indices the layout operations read through, by coordinates -/

theorem neighbourIdx (n : Fin 200000) (k : Fin 64) : idx_main_v95 (ix1 n) k = ix2 n k :=
  funext fun a => Fin.ext (by match a with | ⟨0, _⟩ => rfl | ⟨1, _⟩ => rfl)
theorem coordIdx (n : Fin 200000) (k : Fin 64) (x : Fin 3) : idx_main_v71 (ix2 n k) x = ix3 n k x :=
  funext fun a => Fin.ext (by match a with | ⟨0, _⟩ => rfl | ⟨1, _⟩ => rfl | ⟨2, _⟩ => rfl)
theorem ownCoordIdx (n : Fin 200000) (k : Fin 64) (x : Fin 3) : idx_main_v60 (idx_main_v68 (ix3 n k x)) = ix2 n x :=
  funext fun a => Fin.ext (by match a with | ⟨0, _⟩ => rfl | ⟨1, _⟩ => rfl)
theorem ownIdx20 (n : Fin 200000) (k : Fin 64) : idx_main_v20 (ix2 n k) = ix2 n 0 :=
  funext fun a => Fin.ext (by match a with | ⟨0, _⟩ => rfl | ⟨1, _⟩ => rfl)
theorem ownIdx22 (n : Fin 200000) (k : Fin 64) : idx_main_v22 (ix2 n k) = ix2 n 0 :=
  funext fun a => Fin.ext (by match a with | ⟨0, _⟩ => rfl | ⟨1, _⟩ => rfl)
theorem ownIdx24 (n : Fin 200000) (k : Fin 64) : idx_main_v24 (ix2 n k) = ix2 n 0 :=
  funext fun a => Fin.ext (by match a with | ⟨0, _⟩ => rfl | ⟨1, _⟩ => rfl)
theorem ownIdx31 (n : Fin 200000) (k : Fin 64) : idx_main_v31 (ix2 n k) = ix2 n 0 :=
  funext fun a => Fin.ext (by match a with | ⟨0, _⟩ => rfl | ⟨1, _⟩ => rfl)
theorem ownIdx52 (n : Fin 200000) (k : Fin 64) : idx_main_v52 (ix2 n k) = ix2 n 0 :=
  funext fun a => Fin.ext (by match a with | ⟨0, _⟩ => rfl | ⟨1, _⟩ => rfl)

/-- The squared distance between atom n and its k-th neighbour: the host's sum over the three coordinates. -/
theorem sqDist_apply (n : Fin 200000) (k : Fin 64) :
    val_main_v71 (F := Ideal) a1 a4 (ix2 n k)
      = ∑ x : Fin 3, (a1 (ix2 n x) - val_main_v67 a1 a4 (ix3 n k x)) * (a1 (ix2 n x) - val_main_v67 a1 a4 (ix3 n k x)) := by
  rw [val_main_v71_apply]
  have hz : ∀ i, val_main_cst_15 (F := Ideal) i = 0 := fun _ => Ideal.ofBits_zero_f32
  rw [hz, zero_add]
  refine Finset.sum_congr rfl fun x _ => ?_
  rw [coordIdx n k x]
  simp only [val_main_v70_apply, val_main_v69_apply, val_main_v68_apply, val_main_v60_apply, ownCoordIdx,
    Ideal.mulf_def, Ideal.subf_def]

/-- THE REFERENCE'S PER-ATOM ENERGY at atom n. -/
theorem atomEnergy_apply (n : Fin 200000) :
    val_main_v95 (F := Ideal) a0 a1 a2 a3 a4 a5 (ix1 n)
      = ∑ k : Fin 64, pairSel (val_main_v4 a0 (ix2 n 0)) (val_main_v5 a0 (ix2 n 0)) (val_main_v42 a2 a3 (ix2 n 0))
          (val_main_v12 a0 a4 (ix2 n k)) (val_main_v19 a0 a4 (ix2 n k)) (val_main_v51 a2 a3 a4 (ix2 n k)) (a5 (ix2 n k))
          (∑ x : Fin 3, (a1 (ix2 n x) - val_main_v67 a1 a4 (ix3 n k x)) * (a1 (ix2 n x) - val_main_v67 a1 a4 (ix3 n k x))) := by
  rw [val_main_v95_apply]
  have hz : ∀ i, val_main_cst_19 (F := Ideal) i = 0 := fun _ => Ideal.ofBits_zero_f32
  rw [hz, zero_add]
  refine Finset.sum_congr rfl fun k _ => ?_
  rw [neighbourIdx n k]
  unfold pairSel damped pow6 pow8Chain pow8Square dist radius mix pow6
  simp only [val_main_v94_apply, val_main_v93_apply, val_main_v92_apply, val_main_v91_apply, val_main_v90_apply,
    val_main_v89_apply, val_main_v88_apply, val_main_v87_apply, val_main_v86_apply, val_main_cst_18_apply,
    val_main_v85_apply, val_main_v84_apply, val_main_cst_17_apply, val_main_v83_apply, val_main_v82_apply,
    val_main_v81_apply, val_main_v80_apply, val_main_v79_apply, val_main_v78_apply, val_main_v77_apply,
    val_main_v76_apply, val_main_v75_apply, val_main_v74_apply, val_main_v73_apply, val_main_cst_16_apply,
    val_main_v72_apply, sqDist_apply,
    val_main_v59_apply, val_main_v58_apply, val_main_cst_12_apply, val_main_v57_apply, val_main_v56_apply,
    val_main_cst_11_apply, val_main_v55_apply, val_main_v54_apply, val_main_call2_v1_apply, val_main_call2_v0_apply,
    val_main_cst_10_apply, val_main_v53_apply, val_main_v52_apply, ownIdx52, val_main_v44_apply, val_main_v43_apply,
    val_main_cst_7_apply,
    val_main_v34_apply, val_main_call1_v1_apply, val_main_call1_v0_apply, val_main_cst_4_apply, val_main_v33_apply,
    val_main_v32_apply, val_main_v31_apply, ownIdx31, val_main_v30_apply, val_main_v29_apply, val_main_cst_3_apply,
    val_main_v28_apply, val_main_call0_v1_apply, val_main_call0_v0_apply, val_main_cst_apply, val_main_v27_apply,
    val_main_v26_apply, val_main_v25_apply, val_main_v24_apply, ownIdx24, val_main_v23_apply, val_main_v22_apply, ownIdx22,
    val_main_v21_apply, val_main_v20_apply, ownIdx20,
    Ideal.mulf_def, Ideal.addf_def, Ideal.hostDivf_def, Ideal.maximumf_def, Ideal.hostUnary_sqrt_def, Ideal.ofBits_def]

/-! ## The tail both programs end with -/

/-- Per-molecule sums of the per-atom energies — a scatter-add by molecule index into zeros — scaled by the
    literal −½ Hartree: the same four operations close both programs. -/
def moleculeEnergies (mol : IVec S200000 32) (e : FVec Ideal S200000 .f32) : FVec Ideal S2000 .f32 :=
  mulf (broadcastInDim S2000 ![] Facts₀.bcast_S_S2000 (constant (F := Ideal) S_ .f32 0xC159B0EB#32))
    (Host.scatterAdd scatter_S2000_S200000x1_S200000_n_0_0_1
      (broadcastInDim S2000 ![] Facts₀.bcast_S_S2000 (constant (F := Ideal) S_ .f32 0x00000000#32))
      (broadcastInDim S200000x1 ![0] Facts₀.bcast_S200000_S200000x1_0 mol) e)

/-- The reference's result is that tail of its per-atom energies. -/
theorem result_eq (a6 : (⟨S200000, .i32⟩ : BufTy).Contents (Elt Ideal)) :
    val_main_v100 (F := Ideal) a0 a1 a2 a3 a4 a5 a6 = moleculeEnergies a6 (val_main_v95 (F := Ideal) a0 a1 a2 a3 a4 a5) := rfl

end Cert.Dispersion.Reference

end
-- ==== Proof.KernelEnds.lean ====
/-
  What the region is launched on, and what the lines after it leave.

  Before the region the kernel's program slices C6 and alpha out of the parameter array, gathers rr by element
  number, gathers the neighbours' C6, alpha, rr and coordinates by the neighbour matrix (a negative index wrapped
  first), transposes the gathered coordinates to put the neighbour axis last, and reads the pair mask as numbers.
  Each of the nine arrays the region reads is therefore a term of the arguments — for all but the mask and the
  transposed coordinates the very term the reference computes for the same quantity. After the region the
  program reshapes the energy column to a vector and closes with the tail both programs share.
-/
import proofs.«138134_j18580028522577_1_alg».proof.Proof.Gen.KernelIdeal.Frame
import proofs.«138134_j18580028522577_1_alg».proof.Proof.ReferenceAtom
import Idealize.ShloMosaic.Lib.StableHlo.Run

set_option maxRecDepth 16384

noncomputable section

namespace Cert.Dispersion.Kernel

open Idealize.ShloMosaic Idealize.ShloMosaic.TcCoe Idealize.SL.Sem Idealize.ShloMosaic.StableHlo
open Cert.KernelIdeal Cert.KernelIdeal.Gen Cert.Dispersion

variable (m : (ℓ : Loc nD τ sig) → Buf (Elt Ideal) ℓ)

/-! ## The arrays the region reads, as terms of the arguments -/

set_option maxHeartbeats 8000000 in
/-- The atoms' own C6, as a column. -/
theorem c6iArray_eq (c : Dev nD) : (V m c main_v41 : Vec Ideal S200000x1 .f32)
    = Cert.ReferenceIdeal.Read.val_main_v4 (F := Ideal) (m ((c.tc : Thread nD τ).loc main_arg0)) := by
  show StableHlo.after hostOps0 (fun b => m (c, b)) (Proc.devRef .tc main_v41) = _
  after_results_simp
  rfl

set_option maxHeartbeats 8000000 in
/-- The atoms' own alpha, as a column. -/
theorem aiArray_eq (c : Dev nD) : (V m c main_v42 : Vec Ideal S200000x1 .f32)
    = Cert.ReferenceIdeal.Read.val_main_v5 (F := Ideal) (m ((c.tc : Thread nD τ).loc main_arg0)) := by
  show StableHlo.after hostOps0 (fun b => m (c, b)) (Proc.devRef .tc main_v42) = _
  after_results_simp
  rfl

set_option maxHeartbeats 8000000 in
/-- The atoms' own rr (gathered by element number), as a column. -/
theorem rriArray_eq (c : Dev nD) : (V m c main_v43 : Vec Ideal S200000x1 .f32)
    = Cert.ReferenceIdeal.Read.val_main_v42 (F := Ideal) (m ((c.tc : Thread nD τ).loc main_arg2)) (m ((c.tc : Thread nD τ).loc main_arg3)) := by
  show StableHlo.after hostOps0 (fun b => m (c, b)) (Proc.devRef .tc main_v43) = _
  after_results_simp
  rfl

set_option maxHeartbeats 8000000 in
/-- The neighbours' C6. -/
theorem c6jArray_eq (c : Dev nD) : (V m c main_v17 : Vec Ideal S200000x64 .f32)
    = Cert.ReferenceIdeal.Read.val_main_v12 (F := Ideal) (m ((c.tc : Thread nD τ).loc main_arg0)) (m ((c.tc : Thread nD τ).loc main_arg4)) := by
  show StableHlo.after hostOps0 (fun b => m (c, b)) (Proc.devRef .tc main_v17) = _
  after_results_simp
  rfl

set_option maxHeartbeats 8000000 in
/-- The neighbours' alpha. -/
theorem ajArray_eq (c : Dev nD) : (V m c main_v24 : Vec Ideal S200000x64 .f32)
    = Cert.ReferenceIdeal.Read.val_main_v19 (F := Ideal) (m ((c.tc : Thread nD τ).loc main_arg0)) (m ((c.tc : Thread nD τ).loc main_arg4)) := by
  show StableHlo.after hostOps0 (fun b => m (c, b)) (Proc.devRef .tc main_v24) = _
  after_results_simp
  rfl

set_option maxHeartbeats 8000000 in
/-- The neighbours' rr. -/
theorem rrjArray_eq (c : Dev nD) : (V m c main_v31 : Vec Ideal S200000x64 .f32)
    = Cert.ReferenceIdeal.Read.val_main_v51 (F := Ideal) (m ((c.tc : Thread nD τ).loc main_arg2)) (m ((c.tc : Thread nD τ).loc main_arg3)) (m ((c.tc : Thread nD τ).loc main_arg4)) := by
  show StableHlo.after hostOps0 (fun b => m (c, b)) (Proc.devRef .tc main_v31) = _
  after_results_simp
  rfl

set_option maxHeartbeats 8000000 in
/-- The pair mask read as numbers. -/
theorem maskArray_eq (c : Dev nD) : (V m c main_v40 : Vec Ideal S200000x64 .f32)
    = uitofp (F := Ideal) .f32 (m ((c.tc : Thread nD τ).loc main_arg5)) := by
  show StableHlo.after hostOps0 (fun b => m (c, b)) (Proc.devRef .tc main_v40) = _
  after_results_simp

set_option maxHeartbeats 8000000 in
/-- The neighbours' coordinates, gathered [atom, neighbour, xyz] and transposed to [atom, xyz, neighbour]. -/
theorem xjArray_eq (c : Dev nD) : (V m c main_v39 : Vec Ideal S200000x3x64 .f32)
    = transpose S200000x3x64 [0, 2, 1]
        (Cert.ReferenceIdeal.Read.val_main_v67 (F := Ideal) (m ((c.tc : Thread nD τ).loc main_arg1)) (m ((c.tc : Thread nD τ).loc main_arg4)))
        Facts₀.transposes_S200000x64x3_S200000x3x64_0_2_1 := by
  show StableHlo.after hostOps0 (fun b => m (c, b)) (Proc.devRef .tc main_v39) = _
  after_results_simp
  rfl

/-! ## The lines after the region -/

/-- The kernel's result: the shared tail of the region's energy column, reshaped to a vector, by the molecule index
    as launched. -/
theorem result_eq (c : Dev nD) :
    Pipeline.afterTail₀ cfgs (dats m) 0 (V0 m) [hostOps1] c main_v50
      = Cert.Dispersion.Reference.moleculeEnergies (m ((c.tc : Thread nD τ).loc main_arg6))
          (shapeCast S200000 ((dats m 0 c).arrAt 9 cfg0.N) Facts₀.shapeCasts_S200000x1_S200000) := by
  have h44 : Pipeline.withArrays (cfgs 0).spec c (V0 m c) (fun w => (dats m 0 c).arrAt w (cfgs 0).N) (Proc.devRef .tc main_v44)
      = (dats m 0 c).arrAt 9 cfg0.N := Pipeline.withArrays_arr spec0 launch0.win.arr_inj c _ _ 9
  have h6 : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  unfold Pipeline.afterTail₀
  show StableHlo.after hostOps1 _ (Proc.devRef .tc main_v50) = _
  after_results
  rw [h44, h6]
  rfl

end Cert.Dispersion.Kernel

end
-- ==== Proof.AtomEnergies.lean ====
/-
  The two programs' per-atom energies are one vector.

  At atom n the kernel's energy column holds the sum over n's 64 neighbours of the pair energy that masks by
  multiplication, of the arrays the region was launched on; those arrays are the reference's own terms for the
  same quantities (the mask read as a number, the gathered coordinates with their two last axes swapped), and
  the reference's per-atom energy is the same sum of the pair energy that masks by selection. The law
  `pairMul_eq_pairSel` joins them neighbour by neighbour; no hypothesis on the inputs is used.
-/
import proofs.«138134_j18580028522577_1_alg».proof.Proof.KernelArray
import proofs.«138134_j18580028522577_1_alg».proof.Proof.KernelEnds
import proofs.«138134_j18580028522577_1_alg».proof.Proof.ReferenceAtom

set_option maxRecDepth 16384

noncomputable section

open scoped BigOperators

namespace Cert.Dispersion.Kernel

open Idealize.ShloMosaic Idealize.ShloMosaic.TcCoe Idealize.ShloMosaic.ValueIdx Idealize.SL.Sem
open Cert.KernelIdeal Cert.KernelIdeal.Gen Cert.Dispersion

variable (m : (ℓ : Loc nD τ sig) → Buf (Elt Ideal) ℓ)

/-- The gathered neighbour coordinates with their two last axes swapped, read at (atom, xyz, neighbour), are
    the gathered ones at (atom, neighbour, xyz). -/
theorem swapped_apply (v : Vec Ideal S200000x64x3 .f32) (h : S200000x64x3.Transposes [0, 2, 1] S200000x3x64)
    (n : Fin 200000) (x : Fin 3) (k : Fin 64) :
    transpose S200000x3x64 [0, 2, 1] v h (ix3 n x k) = v (ix3 n k x) :=
  transpose_apply [0, 2, 1] v h (ix3 n x k) (ix3 n k x) (fun b => match b with
    | ⟨0, _⟩ => rfl | ⟨1, _⟩ => rfl | ⟨2, _⟩ => rfl)

/-- THE BRIDGE: the kernel's energy column, reshaped to a vector, is the reference's per-atom energy vector of the
    same arguments. -/
theorem atomEnergies_eq (c : Dev nD) :
    shapeCast S200000 ((dats m 0 c).arrAt 9 cfg0.N) Facts₀.shapeCasts_S200000x1_S200000
      = Cert.ReferenceIdeal.Read.val_main_v95 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) := by
  refine funext fun (i : S200000.Idx) => ?_
  obtain ⟨n, rfl⟩ : ∃ n : Fin 200000, i = ix1 n := ⟨i 0, eq_ix1 i⟩
  have hcol : @Eq EReal
      (shapeCast S200000 ((dats m 0 c).arrAt 9 cfg0.N) Facts₀.shapeCasts_S200000x1_S200000 (ix1 n))
      (atomColumn (V m c main_v41) (V m c main_v42) (V m c main_v43) (V m c main_arg1) (V m c main_v17) (V m c main_v24)
        (V m c main_v31) (V m c main_v40) (V m c main_v39) (ix2 n 0)) := by
    rw [outArray_eq m c]
    exact shapeCast_apply _ _ (ix1 n) (ix2 n 0) (by
      rw [Shape.rowMajor_val_two, Shape.rowMajor_val_one]; show n.val * 1 + 0 = n.val; omega)
  refine hcol.trans ?_
  rw [Reference.atomEnergy_apply]
  unfold atomColumn
  refine Finset.sum_congr rfl fun k _ => ?_
  rw [c6iArray_eq m c, aiArray_eq m c, rriArray_eq m c, V_main_arg1 m c, c6jArray_eq m c, ajArray_eq m c, rrjArray_eq m c,
    maskArray_eq m c, xjArray_eq m c]
  refine Eq.trans ?_ (pairMul_eq_pairSel _ _ _ _ _ _ (m ((c.tc : Thread nD τ).loc main_arg5) (ix2 n k)) _)
  refine congrArg (pairMul _ _ _ _ _ _ _) ?_
  refine Finset.sum_congr rfl fun x _ => ?_
  rw [swapped_apply]

end Cert.Dispersion.Kernel

end
-- ==== Proof.KernelRun.lean ====
/-
  The kernel's run, read: every weakly fair execution ends with the result at the shared tail — per-molecule sums,
  scaled — of the REFERENCE's per-atom energy vector of the same arguments, and the arguments unchanged.

  The generated frame run already states what each buffer holds at the end: the region's arrays by the proof data,
  every other buffer by the lines after the region. The result is read through those lines (`result_eq`) and the
  bridge (`atomEnergies_eq`); each argument as the generated frame reads it.
-/
import proofs.«138134_j18580028522577_1_alg».proof.Proof.AtomEnergies

set_option maxRecDepth 16384

noncomputable section

namespace Cert.Dispersion.Kernel

open Idealize.ShloMosaic Idealize.ShloMosaic.TcCoe Idealize.SL.Sem
open Cert.KernelIdeal Cert.KernelIdeal.Gen Cert.Dispersion

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v50)
        = Reference.moleculeEnergies (m ((c.tc : Thread nD τ).loc main_arg6))
            (Cert.ReferenceIdeal.Read.val_main_v95 (F := Ideal) (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v50 (Pipeline.mem_restRefs_of main_v50 (by decide) (by decide))).trans
        ((result_eq m c).trans (congrArg _ (atomEnergies_eq m c))),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Dispersion.Kernel

end
-- ==== Proof.lean ====
/-
  The certificate of a D3(BJ)-style dispersion energy kernel against its plain reference.

  Both programs compute, for 200000 atoms with 64 listed neighbours each, the damped pair energies
      e(i,j) = c(i,j) · ( 1/(d⁶ + r₀⁶) + s₈·q(i,j)/(d⁸ + r₀⁸) ),
  sum them per atom, sum the atoms per molecule and scale by −½ Hartree. They gather the neighbours' parameters
  and coordinates alike, on the host. The kernel then works on blocks of 1000 atoms and masks a pair out by
  multiplying with the mask read as the number 1 or 0 (c = m·x, q = m·y + (1 − m)·1); the reference selects on the
  mask bit. On the extended reals 0·x = 0 for every x and x + 0 = x, so the two agree for ALL inputs
  (Proof/PairEnergy.lean); the precondition is not used by the value claim.

  The pieces: Proof/PairEnergy.lean (one pair, both arrangements, the law), Proof/BlockReads.lean and
  Proof/KernelPayload.lean (what the body stores for a block, at an atom), Proof/KernelArray.lean (from blocks to
  the array), Proof/KernelEnds.lean (the arrays the region reads and the lines after it, as terms of the
  arguments), Proof/ReferenceAtom.lean (the reference at an atom; the shared tail), Proof/AtomEnergies.lean (the
  bridge) and Proof/KernelRun.lean (the kernel's run, read). The three frames are the generated ones (the
  reference's: its generated run with the result dropped); the idealization rewrote nothing.
-/
import proofs.«138134_j18580028522577_1_alg».proof.Defs
import proofs.«138134_j18580028522577_1_alg».proof.Proof.Gen.Kernel
import proofs.«138134_j18580028522577_1_alg».proof.Proof.Gen.Kernel.Skeleton
import proofs.«138134_j18580028522577_1_alg».proof.Proof.Gen.Kernel.Launch
import proofs.«138134_j18580028522577_1_alg».proof.Proof.Gen.Kernel.Points
import proofs.«138134_j18580028522577_1_alg».proof.Proof.Gen.Kernel.Frame
import proofs.«138134_j18580028522577_1_alg».proof.Proof.Gen.KernelIdeal
import proofs.«138134_j18580028522577_1_alg».proof.Proof.Gen.KernelIdeal.Skeleton
import proofs.«138134_j18580028522577_1_alg».proof.Proof.Gen.KernelIdeal.Launch
import proofs.«138134_j18580028522577_1_alg».proof.Proof.Gen.KernelIdeal.Points
import proofs.«138134_j18580028522577_1_alg».proof.Proof.Gen.KernelIdeal.Frame
import proofs.«138134_j18580028522577_1_alg».proof.Proof.Gen.ReferenceIdeal
import proofs.«138134_j18580028522577_1_alg».proof.Proof.Gen.ReferenceIdeal.Run
import proofs.«138134_j18580028522577_1_alg».proof.Proof.Gen.ReferenceIdeal.Read
import proofs.«138134_j18580028522577_1_alg».proof.Proof.Gen.Pre_finite_inputs
import proofs.«138134_j18580028522577_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the per-molecule sums, scaled, of ONE per-atom energy vector of the arguments. -/
theorem algebraic : Cert.algebraic_KernelIdeal_ReferenceIdeal := by
  intro m ρ m' ρ' _ hagree
  refine ⟨_, Cert.Dispersion.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1,
    (hagree c).2.2.2.2.1, (hagree c).2.2.2.2.2.1, (hagree c).2.2.2.2.2.2]
  exact Cert.Dispersion.Reference.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
